-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S320000x128 : Shape := ⟨2, ![320000, 128]⟩
abbrev S128x128 : Shape := ⟨2, ![128, 128]⟩
abbrev S128 : Shape := ⟨1, ![128]⟩
abbrev S256x128 : Shape := ⟨2, ![256, 128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S320000x128 : S_.BroadcastsInDim S320000x128 (![] : Fin 0 → Fin S320000x128.rank)
  reducesTo_S320000x128_S_d0_1 : S320000x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S256x128 : S_.BroadcastsInDim S256x128 (![] : Fin 0 → Fin S256x128.rank)
  reducesTo_S256x128_S_d0_1 : S256x128.ReducesTo [0, 1] S_

variable [Facts]

def fn_part1 {F : FTy → Type} [FloatOps F] (main_arg4 : FVec F S256x128 .f32) (main_arg5 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S256x128 .f32 := Host.absf main_arg4
  let main_cst_6 : FVec F S_ .f32 := constant S_ .f32 0x7F800000#32
  let main_v20 : FVec F S256x128 .f32 := broadcastInDim S256x128 ![] bcast_S_S256x128 main_cst_6
  let main_v21 : IVec S256x128 1 := cmpf .olt main_v19 main_v20
  let main_c_7 : IVec S_ 1 := constantI S_ 1 1#1
  let main_v22 : IVec S_ 1 := (fun x v => Host.reduce IntOp.andi x v reducesTo_S256x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S10000x128 .f32) (main_arg1 : FVec F S320000x128 .f32) (main_arg2 : FVec F S128x128 .f32) (main_arg3 : FVec F S128 .f32) (main_arg4 : FVec F S256x128 .f32) (main_arg5 : FVec F S128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S320000x128 .f32 := Host.absf main_arg1
  let main_cst_0 : FVec F S_ .f32 := constant S_ .f32 0x7F800000#32
  let main_v5 : FVec F S320000x128 .f32 := broadcastInDim S320000x128 ![] bcast_S_S320000x128 main_cst_0
  let main_v6 : IVec S320000x128 1 := cmpf .olt main_v4 main_v5
  let main_c_1 : IVec S_ 1 := constantI S_ 1 1#1
  let main_v7 : IVec S_ 1 := (fun x v => Host.reduce IntOp.andi x v reducesTo_S320000x128_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_v13 main_v16
-- ==== Kernel.lean ====
abbrev S10000x128 : Shape := ⟨2, ![10000, 128]⟩
abbrev S320000x128 : Shape := ⟨2, ![320000, 128]⟩
abbrev S128x128 : Shape := ⟨2, ![128, 128]⟩
abbrev S128 : Shape := ⟨1, ![128]⟩
abbrev S256x128 : Shape := ⟨2, ![256, 128]⟩
abbrev S400x128 : Shape := ⟨2, ![400, 128]⟩
abbrev S12800x128 : Shape := ⟨2, ![12800, 128]⟩
abbrev S1x128 : Shape := ⟨2, ![1, 128]⟩
abbrev S400x32x128 : Shape := ⟨3, ![400, 32, 128]⟩
abbrev S400x256 : Shape := ⟨2, ![400, 256]⟩

abbrev nBuf : Space → Nat
  | .hbm => 7
  | .vmem => 10
  | .smem => 0
  | _ => 0

abbrev bufTy : (tb : Table) → Fin (tcTables nBuf tb) → BufTy
  | .hbm, ⟨0, _⟩ => ⟨S10000x128, .f32⟩
  | .hbm, ⟨1, _⟩ => ⟨S320000x128, .f32⟩
  | .hbm, ⟨2, _⟩ => ⟨S128x128, .f32⟩
  | .hbm, ⟨3, _⟩ => ⟨S128, .f32⟩
  | .hbm, ⟨4, _⟩ => ⟨S256x128, .f32⟩
  | .hbm, ⟨5, _⟩ => ⟨S128, .f32⟩
  | .hbm, ⟨6, _⟩ => ⟨S10000x128, .f32⟩
  | .local _ .vmem, ⟨0, _⟩ => ⟨S400x128, .f32⟩
  | .local _ .vmem, ⟨1, _⟩ => ⟨S400x128, .f32⟩
  | .local _ .vmem, ⟨2, _⟩ => ⟨S12800x128, .f32⟩
  | .local _ .vmem, ⟨3, _⟩ => ⟨S12800x128, .f32⟩
  | .local _ .vmem, ⟨4, _⟩ => ⟨S128x128, .f32⟩
  | .local _ .vmem, ⟨5, _⟩ => ⟨S128, .f32⟩
  | .local _ .vmem, ⟨6, _⟩ => ⟨S256x128, .f32⟩
  | .local _ .vmem, ⟨7, _⟩ => ⟨S128, .f32⟩
  | .local _ .vmem, ⟨8, _⟩ => ⟨S400x128, .f32⟩
  | .local _ .vmem, ⟨9, _⟩ => ⟨S400x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S400x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S12800x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S400x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  inb_S12800x128_S12800x128_0_0 : ∀ a, (![0, 0] : Fin 2 → Nat) a + S12800x128.size a ≤ S12800x128.size a
  h_S12800x128 : 0 < S12800x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S12800x128 : S1x128.Broadcasts S12800x128
  shapeCasts_S12800x128_S400x32x128 : S12800x128.ShapeCasts S400x32x128
  reduces_S400x32x128_S400x128 : S400x32x128.Reduces [1] S400x128
  inb_S400x128_S400x128_0_0 : ∀ a, (![0, 0] : Fin 2 → Nat) a + S400x128.size a ≤ S400x128.size a
  h_S400x128 : 0 < S400x128.numel
  concatenates_S400x128_S400x128_S400x256_d1 : Shape.Concatenates [S400x128, S400x128] S400x256 1
  inb_S256x128_S256x128_0_0 : ∀ a, (![0, 0] : Fin 2 → Nat) a + S256x128.size a ≤ S256x128.size a
  h_S256x128 : 0 < S256x128.numel
  broadcasts_S1x128_S400x128 : S1x128.Broadcasts S400x128
  dot_S12800x128_S128x128_S12800x128_1_0_0_1_n_n_wf : DotDims.WF S12800x128 S128x128 S12800x128 [1] [0] [0] [1] [] []
  dot_S400x256_S256x128_S400x128_1_0_0_1_n_n_wf : DotDims.WF S400x256 S256x128 S400x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x128.size a ≤ S10000x128.size a
  hwx0_0 : ∀ i : grid0.Coords, EltTy.bits .f32 = 32 ∨ (Rect.block (s := S10000x128) S400x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S12800x128.size a ≤ S320000x128.size a
  hwx0_1 : ∀ i : grid0.Coords, EltTy.bits .f32 = 32 ∨ (Rect.block (s := S320000x128) S12800x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x128.size a ≤ S256x128.size a
  hwx0_4 : ∀ i : grid0.Coords, EltTy.bits .f32 = 32 ∨ (Rect.block (s := S256x128) S256x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S128.size a
  hwx0_5 : ∀ i : grid0.Coords, EltTy.bits .f32 = 32 ∨ (Rect.block (s := S128) S128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S400x128.size a ≤ S10000x128.size a
  hwx0_6 : ∀ i : grid0.Coords, EltTy.bits .f32 = 32 ∨ (Rect.block (s := S10000x128) S400x128.size (cc0_transform_6 i) (hinb0_6 i)).WholeWords (EltTy.packing .f32)

variable [Facts₀]

def dot_S12800x128_S128x128_S12800x128_1_0_0_1_n_n : DotDims S12800x128 S128x128 S12800x128 where
  lhsContracting := [1]
  rhsContracting := [0]
  lhsNonContracting := [0]
  rhsNonContracting := [1]
  lhsBatch := []
  rhsBatch := []
  wf := dot_S12800x128_S128x128_S12800x128_1_0_0_1_n_n_wf
def dot_S400x256_S256x128_S400x128_1_0_0_1_n_n : DotDims S400x256 S256x128 S400x128 where
  lhsContracting := [1]
  rhsContracting := [0]
  lhsNonContracting := [0]
  rhsNonContracting := [1]
  lhsBatch := []
  rhsBatch := []
  wf := dot_S400x256_S256x128_S400x128_1_0_0_1_n_n_wf

abbrev win0_0 : Pipeline.Window sig grid0 :=
  Pipeline.Window.ofSpec (Memref.whole main_arg0) S400x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S12800x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S256x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v0) S400x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S10000x128 : Shape := ⟨2, ![10000, 128]⟩
abbrev S320000x128 : Shape := ⟨2, ![320000, 128]⟩
abbrev S128x128 : Shape := ⟨2, ![128, 128]⟩
abbrev S128 : Shape := ⟨1, ![128]⟩
abbrev S256x128 : Shape := ⟨2, ![256, 128]⟩
abbrev S1x128 : Shape := ⟨2, ![1, 128]⟩
abbrev S_ : Shape := ⟨0, ![]⟩
abbrev S10000x32x128 : Shape := ⟨3, ![10000, 32, 128]⟩
abbrev S10000x256 : Shape := ⟨2, ![10000, 256]⟩

abbrev nBuf : Space → Nat
  | .hbm => 24
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S320000x128, .f32⟩
  | .hbm, ⟨2, _⟩ => ⟨S128x128, .f32⟩
  | .hbm, ⟨3, _⟩ => ⟨S128, .f32⟩
  | .hbm, ⟨4, _⟩ => ⟨S256x128, .f32⟩
  | .hbm, ⟨5, _⟩ => ⟨S128, .f32⟩
  | .hbm, ⟨6, _⟩ => ⟨S320000x128, .f32⟩
  | .hbm, ⟨7, _⟩ => ⟨S1x128, .f32⟩
  | .hbm, ⟨8, _⟩ => ⟨S320000x128, .f32⟩
  | .hbm, ⟨9, _⟩ => ⟨S320000x128, .f32⟩
  | .hbm, ⟨10, _⟩ => ⟨S_, .f32⟩
  | .hbm, ⟨11, _⟩ => ⟨S320000x128, .f32⟩
  | .hbm, ⟨12, _⟩ => ⟨S320000x128, .f32⟩
  | .hbm, ⟨13, _⟩ => ⟨S10000x32x128, .f32⟩
  | .hbm, ⟨14, _⟩ => ⟨S_, .f32⟩
  | .hbm, ⟨15, _⟩ => ⟨S10000x128, .f32⟩
  | .hbm, ⟨16, _⟩ => ⟨S10000x256, .f32⟩
  | .hbm, ⟨17, _⟩ => ⟨S10000x128, .f32⟩
  | .hbm, ⟨18, _⟩ => ⟨S1x128, .f32⟩
  | .hbm, ⟨19, _⟩ => ⟨S10000x128, .f32⟩
  | .hbm, ⟨20, _⟩ => ⟨S10000x128, .f32⟩
  | .hbm, ⟨21, _⟩ => ⟨S_, .f32⟩
  | .hbm, ⟨22, _⟩ => ⟨S10000x128, .f32⟩
  | .hbm, ⟨23, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_call0_cst : Ref sig .tc := ⟨.hbm, 10, rfl⟩
abbrev main_call0_v0 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_call1_cst : Ref sig .tc := ⟨.hbm, 21, rfl⟩
abbrev main_call1_v0 : Ref sig .tc := ⟨.hbm, 22, rfl⟩
abbrev main_v12 : Ref sig .tc := ⟨.hbm, 23, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S320000x128_0_1 : S1x128.BroadcastsInDim S320000x128 (![0, 1] : Fin 2 → Fin S320000x128.rank)
  bcast_S_S320000x128 : S_.BroadcastsInDim S320000x128 (![] : Fin 0 → Fin S320000x128.rank)
  shapeCasts_S320000x128_S10000x32x128 : S320000x128.ShapeCasts S10000x32x128
  reducesTo_S10000x32x128_S10000x128_d1 : S10000x32x128.ReducesTo [1] S10000x128
  h_S_ : 0 < S_.numel
  concatenates_S10000x128_S10000x128_S10000x256_d1 : Shape.Concatenates [S10000x128, S10000x128] S10000x256 1
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  dot_S320000x128_S128x128_S320000x128_1_0_0_1_n_n_wf : DotDims.WF S320000x128 S128x128 S320000x128 [1] [0] [0] [1] [] []
  dot_S10000x256_S256x128_S10000x128_1_0_0_1_n_n_wf : DotDims.WF S10000x256 S256x128 S10000x128 [1] [0] [0] [1] [] []

variable [Facts₀]

def dot_S320000x128_S128x128_S320000x128_1_0_0_1_n_n : DotDims S320000x128 S128x128 S320000x128 where
  lhsContracting := [1]
  rhsContracting := [0]
  lhsNonContracting := [0]
  rhsNonContracting := [1]
  lhsBatch := []
  rhsBatch := []
  wf := dot_S320000x128_S128x128_S320000x128_1_0_0_1_n_n_wf
def dot_S10000x256_S256x128_S10000x128_1_0_0_1_n_n : DotDims S10000x256 S256x128 S10000x128 where
  lhsContracting := [1]
  rhsContracting := [0]
  lhsNonContracting := [0]
  rhsNonContracting := [1]
  lhsBatch := []
  rhsBatch := []
  wf := dot_S10000x256_S256x128_S10000x128_1_0_0_1_n_n_wf

class Facts : Prop extends Facts₀ where

variable [Facts]
-- ==== Proof.Spec.lean ====
/-
  What the result array holds, written once, row by row, on the extended reals.

  A node's result row depends on its own feature row, on the feature rows of its 32 neighbours, and on the four
  parameter arrays. Each neighbour row goes through one dense layer and a rectifier (`hiddenUnit`); the 32 hidden rows are
  pooled by an elementwise maximum that starts from -∞ (`pooled`); the node's own row and the pooled row are laid side
  by side into a row of 256 entries (`joined`); a second dense layer and a rectifier give the result row (`outRow`).
  Both programs compute exactly this, the kernel on blocks of 400 nodes and the reference on all 10000 at once, so no
  algebraic law is needed beyond reading every operation at an index: the two sums and the maximum appear in the same
  order on both sides, and nothing here uses that the inputs are finite.
-/
import Idealize.ShloMosaic.Lib.ValueIdx

noncomputable section

namespace Cert.Pooling

open Idealize.ShloMosaic Idealize.ShloMosaic.ValueIdx

/-- One neighbour's hidden unit `d`: the neighbour's row times column `d` of the pooling weights, plus the pooling
    bias, cut below at zero. -/
def hiddenUnit (nb : Fin 128 → EReal) (wp : (⟨2, ![128, 128]⟩ : Shape).Idx → EReal) (bp : (⟨1, ![128]⟩ : Shape).Idx → EReal)
    (d : Fin 128) : EReal :=
  max ((∑ k : Fin 128, nb k * wp (ix2 k d)) + bp (ix1 d)) (Ideal.ofBits .f32 0x00000000#32)

/-- Unit `d` pooled over a node's 32 neighbours: the maximum of their hidden units, from -∞. -/
def pooled (nbs : Fin 32 → Fin 128 → EReal) (wp : (⟨2, ![128, 128]⟩ : Shape).Idx → EReal)
    (bp : (⟨1, ![128]⟩ : Shape).Idx → EReal) (d : Fin 128) : EReal :=
  (Finset.univ : Finset (Fin 32)).fold max (Ideal.ofBits .f32 0xFF800000#32) (fun j => hiddenUnit (nbs j) wp bp d)

/-- The node's own row followed by its pooled row: entry `e` of the 256. -/
def joined (own : Fin 128 → EReal) (pl : Fin 128 → EReal) (e : Fin 256) : EReal :=
  if h : e.val < 128 then own ⟨e.val, h⟩ else pl ⟨e.val - 128, by have := e.isLt; omega⟩

/-- Entry `o` of a node's result row. -/
def outRow (own : Fin 128 → EReal) (nbs : Fin 32 → Fin 128 → EReal) (wp : (⟨2, ![128, 128]⟩ : Shape).Idx → EReal)
    (bp : (⟨1, ![128]⟩ : Shape).Idx → EReal) (w : (⟨2, ![256, 128]⟩ : Shape).Idx → EReal)
    (b : (⟨1, ![128]⟩ : Shape).Idx → EReal) (o : Fin 128) : EReal :=
  max ((∑ e : Fin 256, joined own (pooled nbs wp bp) e * w (ix2 e o)) + b (ix1 o)) (Ideal.ofBits .f32 0x00000000#32)

/-- Neighbour `j` of node `P` is row `32 P + j` of the neighbour array. -/
def nbRow (P : Fin 10000) (j : Fin 32) : Fin 320000 := ⟨P.val * 32 + j.val, by have := P.isLt; have := j.isLt; omega⟩

/-- THE RESULT ARRAY as one function of the six argument arrays, index by index. -/
def sage (src : (⟨2, ![10000, 128]⟩ : Shape).Idx → EReal) (nb : (⟨2, ![320000, 128]⟩ : Shape).Idx → EReal)
    (wp : (⟨2, ![128, 128]⟩ : Shape).Idx → EReal) (bp : (⟨1, ![128]⟩ : Shape).Idx → EReal)
    (w : (⟨2, ![256, 128]⟩ : Shape).Idx → EReal) (b : (⟨1, ![128]⟩ : Shape).Idx → EReal) :
    (⟨2, ![10000, 128]⟩ : Shape).Idx → EReal :=
  fun i => outRow (fun k => src (ix2 (i 0) k)) (fun j k => nb (ix2 (nbRow (i 0) j) k)) wp bp w b (i 1)

end Cert.Pooling

end
-- ==== Proof.RefRow.lean ====
/-
  The reference, read one result entry at a time.

  The reference runs the same two dense layers on all 10000 nodes at once: the hidden units of the 320000 neighbour
  rows, their regrouping by node (node `P`'s neighbours are rows `32 P … 32 P + 31`), the maximum over each group
  from -∞, the node's own row beside its pooled row, and the output layer. Its stages up to the hidden units, the
  regrouping and the output layer are read at an index by the generated lemmas; the maximum over a group and the
  joining of the two halves are read here. Entry `(P, o)` of the result is `Pooling.outRow` of node `P`'s own row,
  its 32 neighbour rows and the parameters: the function `Pooling.sage` of the six arguments.
-/
import proofs.«144850_j68796786147566_1_alg».proof.Proof.Gen.ReferenceIdeal.Read
import proofs.«144850_j68796786147566_1_alg».proof.Proof.Spec
import Idealize.ShloMosaic.Lib.Pipeline.Value
import Idealize.ShloMosaic.Lib.ValueIdx
import Idealize.ShloMosaic.PureOps.Ideal.Laws

noncomputable section

namespace Cert.ReferenceIdeal.Row

open Cert.ReferenceIdeal Cert.ReferenceIdeal.Gen Cert.ReferenceIdeal.Read Idealize.ShloMosaic Idealize.ShloMosaic.ValueIdx Cert.Pooling

/-! ## The generated index functions at coordinates -/

theorem lidx_pool (r : Fin 320000) (d k : Fin 128) : lidx_main_v0 (ix2 r d) k = ix2 r k :=
  funext fun a => Fin.ext (by match a with | ⟨0, _⟩ => rfl | ⟨1, _⟩ => rfl)
theorem ridx_pool (r : Fin 320000) (d k : Fin 128) : ridx_main_v0 (ix2 r d) k = ix2 k d :=
  funext fun a => Fin.ext (by match a with | ⟨0, _⟩ => rfl | ⟨1, _⟩ => rfl)
theorem bidx_pool (r : Fin 320000) (d : Fin 128) : idx_main_v1 (idx_main_v2 (ix2 r d)) = ix1 d :=
  funext fun a => Fin.ext (by match a with | ⟨0, _⟩ => rfl)
theorem lidx_out (P : Fin 10000) (o : Fin 128) (e : Fin 256) : lidx_main_v8 (ix2 P o) e = ix2 P e :=
  funext fun a => Fin.ext (by match a with | ⟨0, _⟩ => rfl | ⟨1, _⟩ => rfl)
theorem ridx_out (P : Fin 10000) (o : Fin 128) (e : Fin 256) : ridx_main_v8 (ix2 P o) e = ix2 e o :=
  funext fun a => Fin.ext (by match a with | ⟨0, _⟩ => rfl | ⟨1, _⟩ => rfl)
theorem bidx_out (P : Fin 10000) (o : Fin 128) : idx_main_v9 (idx_main_v10 (ix2 P o)) = ix1 o :=
  funext fun a => Fin.ext (by match a with | ⟨0, _⟩ => rfl)
/-- Entry `(P, j, d)` of the regrouped array is entry `(32 P + j, d)` of the rows. -/
theorem idx_regroup (P : Fin 10000) (j : Fin 32) (d : Fin 128) : idx_main_v5 (ix3 P j d) = ix2 (nbRow P j) d :=
  funext fun a => Fin.ext (by
    have hd := d.isLt
    match a with
    | ⟨0, _⟩ => show ((P.val * 32 + j.val) * 128 + d.val) / 128 = P.val * 32 + j.val; omega
    | ⟨1, _⟩ => show ((P.val * 32 + j.val) * 128 + d.val) % 128 = d.val; omega)

/-! ## The stages at an index -/

/-- Hidden unit `d` of neighbour row `r`. -/
theorem hidden_apply (x1 : (⟨S320000x128, .f32⟩ : BufTy).Contents (Elt Ideal)) (x2 : (⟨S128x128, .f32⟩ : BufTy).Contents (Elt Ideal))
    (x3 : (⟨S128, .f32⟩ : BufTy).Contents (Elt Ideal)) (r : Fin 320000) (d : Fin 128) :
    val_main_v4 (F := Ideal) x1 x2 x3 (ix2 r d) = hiddenUnit (fun k => x1 (ix2 r k)) x2 x3 d := by
  rw [val_main_v4_apply, val_main_v3_apply, val_main_v0_apply, val_main_v2_apply, val_main_v1_apply, val_main_call0_v0_apply,
    val_main_call0_cst_apply]
  simp only [lidx_pool, ridx_pool, bidx_pool]
  rfl

theorem groups : S10000x32x128.Reduces [1] S10000x128 := by decide

/-- Pooled unit `d` of node `P`: the maximum from -∞ over the node's 32 hidden rows. -/
theorem pooled_apply (x1 : (⟨S320000x128, .f32⟩ : BufTy).Contents (Elt Ideal)) (x2 : (⟨S128x128, .f32⟩ : BufTy).Contents (Elt Ideal))
    (x3 : (⟨S128, .f32⟩ : BufTy).Contents (Elt Ideal)) (P : Fin 10000) (d : Fin 128) :
    val_main_v6 (F := Ideal) x1 x2 x3 (ix2 P d) = pooled (fun j k => x1 (ix2 (nbRow P j) k)) x2 x3 d := by
  unfold val_main_v6 pooled
  refine (Host.reduce_eq_fold_single (α := Ideal .f32) (s := S10000x32x128) (t := S10000x128) (a := 1) (u := S_)
    (FloatOps.maximumf (F := Ideal) (φ := .f32)) (val_main_v5 (F := Ideal) x1 x2 x3) (val_main_cst (F := Ideal))
    reducesTo_S10000x32x128_S10000x128_d1 groups h_S_ (ix2 P d)).trans ?_
  have e : (val_main_v5 (F := Ideal) x1 x2 x3 ∘ groups.lift (ix2 P d) : Fin 32 → EReal)
      = fun j => hiddenUnit (fun k => x1 (ix2 (nbRow P j) k)) x2 x3 d := funext fun j => by
    show val_main_v5 (F := Ideal) x1 x2 x3 (groups.lift (ix2 P d) j) = _
    rw [show groups.lift (ix2 P d) j = ix3 P j d from funext fun c => Fin.ext (by
      match c with
      | ⟨0, _⟩ => rfl
      | ⟨1, _⟩ => rfl
      | ⟨2, _⟩ => rfl), val_main_v5_apply, idx_regroup, hidden_apply]
  exact congrArg (fun f : Fin 32 → EReal => (Finset.univ : Finset (Fin 32)).fold max (Ideal.ofBits .f32 0xFF800000#32) f) e

/-- Entry `e` of node `P`'s joined row: its own row for `e < 128`, its pooled row at `e - 128` after. -/
theorem joined_apply (x0 : (⟨S10000x128, .f32⟩ : BufTy).Contents (Elt Ideal)) (x1 : (⟨S320000x128, .f32⟩ : BufTy).Contents (Elt Ideal))
    (x2 : (⟨S128x128, .f32⟩ : BufTy).Contents (Elt Ideal)) (x3 : (⟨S128, .f32⟩ : BufTy).Contents (Elt Ideal)) (P : Fin 10000) (e : Fin 256) :
    val_main_v7 (F := Ideal) x0 x1 x2 x3 (ix2 P e)
      = joined (fun k => x0 (ix2 P k)) (pooled (fun j k => x1 (ix2 (nbRow P j) k)) x2 x3) e := by
  unfold val_main_v7 joined
  by_cases he : e.val < 128
  · rw [dif_pos he]
    exact concatenate_pair_apply_left 1 x0 (val_main_v6 (F := Ideal) x1 x2 x3) concatenates_S10000x128_S10000x128_S10000x256_d1
      (ix2 P e) rfl (ix2 P ⟨e.val, he⟩) (fun c => match c with
        | ⟨0, _⟩ => rfl
        | ⟨1, _⟩ => rfl)
  · rw [dif_neg he]
    exact (concatenate_pair_apply_right 1 x0 (val_main_v6 (F := Ideal) x1 x2 x3) concatenates_S10000x128_S10000x128_S10000x256_d1
      (ix2 P e) rfl rfl (ix2 P ⟨e.val - 128, by have := e.isLt; omega⟩)
      (fun c => match c with
        | ⟨0, _⟩ => fun _ => rfl
        | ⟨1, _⟩ => fun hne => absurd rfl hne)
      (by show e.val - 128 + 128 = e.val; omega)).trans (pooled_apply x1 x2 x3 P _)

/-- ENTRY `(P, o)` OF THE RESULT is the result row of node `P`, entry `o`. -/
theorem result_apply (x0 : (⟨S10000x128, .f32⟩ : BufTy).Contents (Elt Ideal)) (x1 : (⟨S320000x128, .f32⟩ : BufTy).Contents (Elt Ideal))
    (x2 : (⟨S128x128, .f32⟩ : BufTy).Contents (Elt Ideal)) (x3 : (⟨S128, .f32⟩ : BufTy).Contents (Elt Ideal))
    (x4 : (⟨S256x128, .f32⟩ : BufTy).Contents (Elt Ideal)) (x5 : (⟨S128, .f32⟩ : BufTy).Contents (Elt Ideal)) (P : Fin 10000) (o : Fin 128) :
    val_main_v12 (F := Ideal) x0 x1 x2 x3 x4 x5 (ix2 P o)
      = outRow (fun k => x0 (ix2 P k)) (fun j k => x1 (ix2 (nbRow P j) k)) x2 x3 x4 x5 o := by
  rw [val_main_v12_apply, val_main_v11_apply, val_main_v8_apply, val_main_v10_apply, val_main_v9_apply, val_main_call1_v0_apply,
    val_main_call1_cst_apply]
  simp only [lidx_out, ridx_out, bidx_out, joined_apply]
  rfl

/-- THE REFERENCE'S RESULT is `Pooling.sage` of its six arguments. -/
theorem result_eq (x0 : (⟨S10000x128, .f32⟩ : BufTy).Contents (Elt Ideal)) (x1 : (⟨S320000x128, .f32⟩ : BufTy).Contents (Elt Ideal))
    (x2 : (⟨S128x128, .f32⟩ : BufTy).Contents (Elt Ideal)) (x3 : (⟨S128, .f32⟩ : BufTy).Contents (Elt Ideal))
    (x4 : (⟨S256x128, .f32⟩ : BufTy).Contents (Elt Ideal)) (x5 : (⟨S128, .f32⟩ : BufTy).Contents (Elt Ideal)) :
    val_main_v12 (F := Ideal) x0 x1 x2 x3 x4 x5 = sage x0 x1 x2 x3 x4 x5 := by
  funext i
  obtain ⟨P, o, rfl⟩ : ∃ (P : Fin 10000) (o : Fin 128), i = ix2 P o := ⟨i 0, i 1, eq_ix2 i⟩
  exact result_apply x0 x1 x2 x3 x4 x5 P o

end Cert.ReferenceIdeal.Row

end
-- ==== Proof.KernelRow.lean ====
/-
  The kernel's body, read one result entry at a time.

  At a grid point the body holds a block of 400 nodes: their own rows (400 × 128), their neighbours' rows
  (12800 × 128, node `p`'s neighbours being rows `32 p … 32 p + 31` of the block) and the four parameter arrays whole.
  The stored value is named here stage by stage (`hiddenBlock`, `poolBlock`; the narrowing to bf16 in front of each
  product is the identity on extended reals), each stage is read at an index, and entry `(p, o)` of the stored block
  comes out as `Pooling.outRow` of node `p`'s own row, its 32 neighbour rows and the parameters.
-/
import proofs.«144850_j68796786147566_1_alg».proof.Proof.Gen.KernelIdeal.Skeleton
import proofs.«144850_j68796786147566_1_alg».proof.Proof.Spec
import Idealize.ShloMosaic.Lib.Pipeline.Value
import Idealize.ShloMosaic.Lib.ValueIdx
import Idealize.ShloMosaic.PureOps.Ideal.Laws

noncomputable section

namespace Cert.KernelIdeal.Row

open Cert.KernelIdeal Cert.KernelIdeal.Gen Idealize.ShloMosaic Idealize.ShloMosaic.ValueIdx Cert.Pooling

/-! ## The two products at an index -/

theorem mmPool_lhs0 (i : S12800x128.Idx) (q : dot_S12800x128_S128x128_S12800x128_1_0_0_1_n_n.contr.Idx) :
    (dot_S12800x128_S128x128_S12800x128_1_0_0_1_n_n.lhsIdx i q 0).val = (i 0).val := by
  unfold DotDims.lhsIdx
  rw [dif_neg (show ¬(0 : Fin S12800x128.rank) ∈ dot_S12800x128_S128x128_S12800x128_1_0_0_1_n_n.lhsBatch by decide), dif_pos (show (0 : Fin S12800x128.rank) ∈ dot_S12800x128_S128x128_S12800x128_1_0_0_1_n_n.lhsNonContracting by decide)]
  rfl
theorem mmPool_lhs1 (i : S12800x128.Idx) (q : dot_S12800x128_S128x128_S12800x128_1_0_0_1_n_n.contr.Idx) :
    (dot_S12800x128_S128x128_S12800x128_1_0_0_1_n_n.lhsIdx i q 1).val = (q ⟨0, by decide⟩).val :=
  dot_S12800x128_S128x128_S12800x128_1_0_0_1_n_n.lhsIdx_val_of_single rfl i q
theorem mmPool_rhs0 (i : S12800x128.Idx) (q : dot_S12800x128_S128x128_S12800x128_1_0_0_1_n_n.contr.Idx) :
    (dot_S12800x128_S128x128_S12800x128_1_0_0_1_n_n.rhsIdx i q 0).val = (q ⟨0, by decide⟩).val :=
  dot_S12800x128_S128x128_S12800x128_1_0_0_1_n_n.rhsIdx_val_of_single rfl i q
theorem mmPool_rhs1 (i : S12800x128.Idx) (q : dot_S12800x128_S128x128_S12800x128_1_0_0_1_n_n.contr.Idx) :
    (dot_S12800x128_S128x128_S12800x128_1_0_0_1_n_n.rhsIdx i q 1).val = (i 1).val := by
  unfold DotDims.rhsIdx
  rw [dif_neg (show ¬(1 : Fin S128x128.rank) ∈ dot_S12800x128_S128x128_S12800x128_1_0_0_1_n_n.rhsBatch by decide), dif_pos (show (1 : Fin S128x128.rank) ∈ dot_S12800x128_S128x128_S12800x128_1_0_0_1_n_n.rhsNonContracting by decide)]
  rfl

theorem mmOut_lhs0 (i : S400x128.Idx) (q : dot_S400x256_S256x128_S400x128_1_0_0_1_n_n.contr.Idx) :
    (dot_S400x256_S256x128_S400x128_1_0_0_1_n_n.lhsIdx i q 0).val = (i 0).val := by
  unfold DotDims.lhsIdx
  rw [dif_neg (show ¬(0 : Fin S400x256.rank) ∈ dot_S400x256_S256x128_S400x128_1_0_0_1_n_n.lhsBatch by decide), dif_pos (show (0 : Fin S400x256.rank) ∈ dot_S400x256_S256x128_S400x128_1_0_0_1_n_n.lhsNonContracting by decide)]
  rfl
theorem mmOut_lhs1 (i : S400x128.Idx) (q : dot_S400x256_S256x128_S400x128_1_0_0_1_n_n.contr.Idx) :
    (dot_S400x256_S256x128_S400x128_1_0_0_1_n_n.lhsIdx i q 1).val = (q ⟨0, by decide⟩).val :=
  dot_S400x256_S256x128_S400x128_1_0_0_1_n_n.lhsIdx_val_of_single rfl i q
theorem mmOut_rhs0 (i : S400x128.Idx) (q : dot_S400x256_S256x128_S400x128_1_0_0_1_n_n.contr.Idx) :
    (dot_S400x256_S256x128_S400x128_1_0_0_1_n_n.rhsIdx i q 0).val = (q ⟨0, by decide⟩).val :=
  dot_S400x256_S256x128_S400x128_1_0_0_1_n_n.rhsIdx_val_of_single rfl i q
theorem mmOut_rhs1 (i : S400x128.Idx) (q : dot_S400x256_S256x128_S400x128_1_0_0_1_n_n.contr.Idx) :
    (dot_S400x256_S256x128_S400x128_1_0_0_1_n_n.rhsIdx i q 1).val = (i 1).val := by
  unfold DotDims.rhsIdx
  rw [dif_neg (show ¬(1 : Fin S256x128.rank) ∈ dot_S400x256_S256x128_S400x128_1_0_0_1_n_n.rhsBatch by decide), dif_pos (show (1 : Fin S256x128.rank) ∈ dot_S400x256_S256x128_S400x128_1_0_0_1_n_n.rhsNonContracting by decide)]
  rfl

/-- The pooling product into a zero accumulator: entry `(r, d)` is row `r` of the left factor times column `d` of the right. -/
theorem mmPool_apply (a : FVec Ideal S12800x128 .bf16) (b : FVec Ideal S128x128 .bf16) (r : Fin 12800) (d : Fin 128) :
    matmul dot_S12800x128_S128x128_S12800x128_1_0_0_1_n_n none a b (constant S12800x128 .f32 0x00000000#32) (ix2 r d)
      = ∑ k : Fin 128, a (ix2 r k) * b (ix2 k d) := by
  refine (Ideal.matmul_constant_zero_apply dot_S12800x128_S128x128_S12800x128_1_0_0_1_n_n none a b (ix2 r d)).trans ?_
  rw [← Equiv.sum_comp (contrEquiv1 dot_S12800x128_S128x128_S12800x128_1_0_0_1_n_n 128 rfl rfl).symm]
  refine Finset.sum_congr rfl fun k _ => ?_
  have hk := contrEquiv1_symm_val dot_S12800x128_S128x128_S12800x128_1_0_0_1_n_n 128 rfl rfl k
  have el : dot_S12800x128_S128x128_S12800x128_1_0_0_1_n_n.lhsIdx (ix2 r d) ((contrEquiv1 dot_S12800x128_S128x128_S12800x128_1_0_0_1_n_n 128 rfl rfl).symm k) = ix2 r k := funext fun a => Fin.ext (by
    match a with
    | ⟨0, _⟩ => exact mmPool_lhs0 _ _
    | ⟨1, _⟩ => exact (mmPool_lhs1 _ _).trans hk)
  have er : dot_S12800x128_S128x128_S12800x128_1_0_0_1_n_n.rhsIdx (ix2 r d) ((contrEquiv1 dot_S12800x128_S128x128_S12800x128_1_0_0_1_n_n 128 rfl rfl).symm k) = ix2 k d := funext fun a => Fin.ext (by
    match a with
    | ⟨0, _⟩ => exact (mmPool_rhs0 _ _).trans hk
    | ⟨1, _⟩ => exact mmPool_rhs1 _ _)
  rw [el, er]

/-- The output product into a zero accumulator: entry `(p, o)` is the joined row `p` times column `o` of the weights. -/
theorem mmOut_apply (a : FVec Ideal S400x256 .bf16) (b : FVec Ideal S256x128 .bf16) (r : Fin 400) (d : Fin 128) :
    matmul dot_S400x256_S256x128_S400x128_1_0_0_1_n_n none a b (constant S400x128 .f32 0x00000000#32) (ix2 r d)
      = ∑ k : Fin 256, a (ix2 r k) * b (ix2 k d) := by
  refine (Ideal.matmul_constant_zero_apply dot_S400x256_S256x128_S400x128_1_0_0_1_n_n none a b (ix2 r d)).trans ?_
  rw [← Equiv.sum_comp (contrEquiv1 dot_S400x256_S256x128_S400x128_1_0_0_1_n_n 256 rfl rfl).symm]
  refine Finset.sum_congr rfl fun k _ => ?_
  have hk := contrEquiv1_symm_val dot_S400x256_S256x128_S400x128_1_0_0_1_n_n 256 rfl rfl k
  have el : dot_S400x256_S256x128_S400x128_1_0_0_1_n_n.lhsIdx (ix2 r d) ((contrEquiv1 dot_S400x256_S256x128_S400x128_1_0_0_1_n_n 256 rfl rfl).symm k) = ix2 r k := funext fun a => Fin.ext (by
    match a with
    | ⟨0, _⟩ => exact mmOut_lhs0 _ _
    | ⟨1, _⟩ => exact (mmOut_lhs1 _ _).trans hk)
  have er : dot_S400x256_S256x128_S400x128_1_0_0_1_n_n.rhsIdx (ix2 r d) ((contrEquiv1 dot_S400x256_S256x128_S400x128_1_0_0_1_n_n 256 rfl rfl).symm k) = ix2 k d := funext fun a => Fin.ext (by
    match a with
    | ⟨0, _⟩ => exact (mmOut_rhs0 _ _).trans hk
    | ⟨1, _⟩ => exact mmOut_rhs1 _ _)
  rw [el, er]

/-! ## A bias vector laid along the rows -/

/-- A vector of 128 entries, recast as one row and repeated down 12800 rows, reads entry `d` in column `d`. -/
theorem biasPool_apply (v : FVec Ideal S128 .f32) (h1 : S128.ShapeCasts S1x128) (h2 : S1x128.Broadcasts S12800x128)
    (r : Fin 12800) (d : Fin 128) :
    broadcastTo S12800x128 (shapeCast S1x128 v h1) h2 (ix2 r d) = v (ix1 d) :=
  (broadcastTo_apply _ h2 (ix2 r d) (ix2 (0 : Fin 1) d) (fun a => match a with
    | ⟨0, _⟩ => by show 0 = if (1 : Nat) = 1 then 0 else r.val; rw [if_pos rfl]
    | ⟨1, _⟩ => by show d.val = if (128 : Nat) = 1 then 0 else d.val; rw [if_neg (by decide)])).trans
  (shapeCast_apply v h1 (ix2 (0 : Fin 1) d) (ix1 d) (by
    rewrite [Shape.rowMajor_val_one, Shape.rowMajor_val_two]; show d.val = 0 * 128 + d.val; omega))

/-- The same down 400 rows. -/
theorem biasOut_apply (v : FVec Ideal S128 .f32) (h1 : S128.ShapeCasts S1x128) (h2 : S1x128.Broadcasts S400x128)
    (p : Fin 400) (o : Fin 128) :
    broadcastTo S400x128 (shapeCast S1x128 v h1) h2 (ix2 p o) = v (ix1 o) :=
  (broadcastTo_apply _ h2 (ix2 p o) (ix2 (0 : Fin 1) o) (fun a => match a with
    | ⟨0, _⟩ => by show 0 = if (1 : Nat) = 1 then 0 else p.val; rw [if_pos rfl]
    | ⟨1, _⟩ => by show o.val = if (128 : Nat) = 1 then 0 else o.val; rw [if_neg (by decide)])).trans
  (shapeCast_apply v h1 (ix2 (0 : Fin 1) o) (ix1 o) (by
    rewrite [Shape.rowMajor_val_one, Shape.rowMajor_val_two]; show o.val = 0 * 128 + o.val; omega))

/-! ## Grouping the neighbour rows by node, and the maximum over a group -/

/-- Row `32 p + j` of the block's neighbour rows: neighbour `j` of the block's node `p`. -/
def blkRow (p : Fin 400) (j : Fin 32) : Fin 12800 := ⟨p.val * 32 + j.val, by have := p.isLt; have := j.isLt; omega⟩

/-- The 12800 × 128 rows regrouped as 400 × 32 × 128: entry `(p, j, d)` is entry `(32 p + j, d)`. -/
theorem regroup_apply (x : FVec Ideal S12800x128 .f32) (h : S12800x128.ShapeCasts S400x32x128) (p : Fin 400) (j : Fin 32)
    (d : Fin 128) : shapeCast S400x32x128 x h (ix3 p j d) = x (ix2 (blkRow p j) d) :=
  shapeCast_apply x h (ix3 p j d) (ix2 (blkRow p j) d) (by
    rewrite [Shape.rowMajor_val_two, Shape.rowMajor_val_three]
    show (p.val * 32 + j.val) * 128 + d.val = (p.val * 32 + j.val) * 128 + d.val; rfl)

/-- The maximum over the middle axis of a 400 × 32 × 128 array from -∞, at `(p, d)`: the fold of `max` over `j`. -/
theorem groupMax_apply (x : FVec Ideal S400x32x128 .f32) (h : S400x32x128.Reduces [1] S400x128) (hφ : FKind.Formats .f32)
    (hacc : (0xFF800000#32 : BitVec 32) = FKind.maximumf.neutral .f32 hφ) (p : Fin 400) (d : Fin 128) :
    multiReduction .maximumf [1] S400x128 x 0xFF800000#32 h hφ hacc (ix2 p d)
      = (Finset.univ : Finset (Fin 32)).fold max (Ideal.ofBits .f32 0xFF800000#32) (fun j => x (ix3 p j d)) := by
  refine (Ideal.multiReduction_maximumf_single x 0xFF800000#32 h hφ hacc (ix2 p d)).trans ?_
  have e : (x ∘ h.lift (ix2 p d) : Fin 32 → EReal) = fun j => x (ix3 p j d) := funext fun j => congrArg x (funext fun c => Fin.ext (by
    match c with
    | ⟨0, _⟩ => rfl
    | ⟨1, _⟩ => rfl
    | ⟨2, _⟩ => rfl))
  exact congrArg (fun f : Fin 32 → EReal => (Finset.univ : Finset (Fin 32)).fold max (Ideal.ofBits .f32 0xFF800000#32) f) e

/-! ## Two blocks of 128 columns side by side -/

/-- Two 400 × 128 arrays joined along the columns, at `(p, e)`: the first for `e < 128`, the second at `e - 128` after. -/
theorem sideBySide_apply (a b : FVec Ideal S400x128 .f32) (h : Shape.Concatenates [S400x128, S400x128] S400x256 1)
    (p : Fin 400) (e : Fin 256) :
    concatenate S400x256 1 [⟨S400x128, a⟩, ⟨S400x128, b⟩] h (ix2 p e)
      = joined (fun k => a (ix2 p k)) (fun k => b (ix2 p k)) e := by
  unfold joined
  by_cases he : e.val < 128
  · rw [dif_pos he]
    exact concatenate_pair_apply_left 1 a b h (ix2 p e) rfl (ix2 p ⟨e.val, he⟩) (fun c => match c with
      | ⟨0, _⟩ => rfl
      | ⟨1, _⟩ => rfl)
  · rw [dif_neg he]
    exact concatenate_pair_apply_right 1 a b h (ix2 p e) rfl rfl (ix2 p ⟨e.val - 128, by have := e.isLt; omega⟩)
      (fun c => match c with
        | ⟨0, _⟩ => fun _ => rfl
        | ⟨1, _⟩ => fun hne => absurd rfl hne)
      (by show e.val - 128 + 128 = e.val; omega)

/-! ## The body's stages -/

variable {F : FTy → Type} [FloatOps F]

/-- The hidden units of the block's 12800 neighbour rows: the pooling product, plus the bias, cut below at zero. -/
def hiddenBlock (v0 : Vec F S12800x128 .f32) (v2 : Vec F S128x128 .f32) (v5 : Vec F S128 .f32) : FVec F S12800x128 .f32 :=
  maximumf (addf (matmul dot_S12800x128_S128x128_S12800x128_1_0_0_1_n_n none (truncf .bf16 v0 bitsLt_bf16_f32) (truncf .bf16 v2 bitsLt_bf16_f32) (constant S12800x128 .f32 0x00000000#32))
      (broadcastTo S12800x128 (shapeCast S1x128 v5 shapeCasts_S128_S1x128) broadcasts_S1x128_S12800x128))
    (broadcast S12800x128 (Scalar.ofBits .f32 0x00000000#32))

/-- The pooled rows of the block's 400 nodes: the hidden rows regrouped by node and maximised over each group. -/
def poolBlock (v0 : Vec F S12800x128 .f32) (v2 : Vec F S128x128 .f32) (v5 : Vec F S128 .f32) : FVec F S400x128 .f32 :=
  multiReduction .maximumf [1] S400x128 (shapeCast S400x32x128 (hiddenBlock v0 v2 v5) shapeCasts_S12800x128_S400x32x128) 0xFF800000#32
    reduces_S400x32x128_S400x128 (.inl rfl) rfl

/-- The stored value is the second dense layer over own rows and pooled rows side by side. -/
theorem pay_eq (v0 : Vec F S12800x128 .f32) (v2 : Vec F S128x128 .f32) (v5 : Vec F S128 .f32) (v13 : Vec F S400x128 .f32)
    (v16 : Vec F S256x128 .f32) (v19 : Vec F S128 .f32) :
    k0_pay1 v0 v2 v5 v13 v16 v19
      = maximumf (addf (matmul dot_S400x256_S256x128_S400x128_1_0_0_1_n_n none
            (truncf .bf16 (concatenate S400x256 1 [⟨S400x128, v13⟩, ⟨S400x128, poolBlock v0 v2 v5⟩] concatenates_S400x128_S400x128_S400x256_d1) bitsLt_bf16_f32)
            (truncf .bf16 v16 bitsLt_bf16_f32) (constant S400x128 .f32 0x00000000#32))
          (broadcastTo S400x128 (shapeCast S1x128 v19 shapeCasts_S128_S1x128) broadcasts_S1x128_S400x128))
        (broadcast S400x128 (Scalar.ofBits .f32 0x00000000#32)) := rfl

/-- Hidden unit `d` of the block's neighbour row `r`. -/
theorem hiddenBlock_apply (v0 : Vec Ideal S12800x128 .f32) (v2 : Vec Ideal S128x128 .f32) (v5 : Vec Ideal S128 .f32)
    (r : Fin 12800) (d : Fin 128) :
    hiddenBlock (F := Ideal) v0 v2 v5 (ix2 r d) = hiddenUnit (fun k => v0 (ix2 r k)) v2 v5 d := by
  unfold hiddenBlock hiddenUnit
  rw [maximumf_apply, addf_apply, mmPool_apply, biasPool_apply]
  rfl

/-- Pooled unit `d` of the block's node `p`. -/
theorem poolBlock_apply (v0 : Vec Ideal S12800x128 .f32) (v2 : Vec Ideal S128x128 .f32) (v5 : Vec Ideal S128 .f32)
    (p : Fin 400) (d : Fin 128) :
    poolBlock (F := Ideal) v0 v2 v5 (ix2 p d) = pooled (fun j k => v0 (ix2 (blkRow p j) k)) v2 v5 d := by
  unfold poolBlock pooled
  refine (groupMax_apply _ _ _ _ p d).trans ?_
  refine congrArg (fun f : Fin 32 → EReal => (Finset.univ : Finset (Fin 32)).fold max (Ideal.ofBits .f32 0xFF800000#32) f) (funext fun j => ?_)
  rw [regroup_apply, hiddenBlock_apply]

/-- ENTRY `(p, o)` OF THE STORED BLOCK is the result row of node `p` of the block, entry `o`. -/
theorem payload_apply (v0 : Vec Ideal S12800x128 .f32) (v2 : Vec Ideal S128x128 .f32) (v5 : Vec Ideal S128 .f32)
    (v13 : Vec Ideal S400x128 .f32) (v16 : Vec Ideal S256x128 .f32) (v19 : Vec Ideal S128 .f32) (p : Fin 400) (o : Fin 128) :
    k0_pay1 (F := Ideal) v0 v2 v5 v13 v16 v19 (ix2 p o)
      = outRow (fun k => v13 (ix2 p k)) (fun j k => v0 (ix2 (blkRow p j) k)) v2 v5 v16 v19 o := by
  rw [pay_eq]
  unfold outRow
  rw [maximumf_apply, addf_apply, mmOut_apply, biasOut_apply]
  refine congrArg₂ max (congrArg₂ (· + ·) (Finset.sum_congr rfl fun e _ => congrArg₂ (· * ·) ?_ rfl) rfl) rfl
  refine (truncf_apply (ψ := .bf16) _ bitsLt_bf16_f32 _).trans ((sideBySide_apply v13 (poolBlock (F := Ideal) v0 v2 v5) concatenates_S400x128_S400x128_S400x256_d1 p e).trans ?_)
  exact congrArg (fun f : Fin 128 → EReal => joined (fun k => v13 (ix2 p k)) f e) (funext fun k => poolBlock_apply v0 v2 v5 p k)

/-- The same against whole arrays. If the block's node `p` is node `P` of the arrays — its own row is row `P` of
    the feature array, its 32 neighbour rows are rows `32 P + j` of the neighbour array — and the four parameter
    blocks are the parameter arrays, the stored entry `(p, o)` is entry `(P, o)` of `Pooling.sage`. -/
theorem block_row (x0 : Vec Ideal S400x128 .f32) (x1 : Vec Ideal S12800x128 .f32) (x2 : Vec Ideal S128x128 .f32)
    (x3 : Vec Ideal S128 .f32) (x4 : Vec Ideal S256x128 .f32) (x5 : Vec Ideal S128 .f32)
    (A0 : Vec Ideal S10000x128 .f32) (A1 : Vec Ideal S320000x128 .f32) (A2 : Vec Ideal S128x128 .f32)
    (A3 : Vec Ideal S128 .f32) (A4 : Vec Ideal S256x128 .f32) (A5 : Vec Ideal S128 .f32)
    (P : Fin 10000) (p : Fin 400) (o : Fin 128)
    (h0 : ∀ k : Fin 128, x0 (ix2 p k) = A0 (ix2 P k))
    (h1 : ∀ (j : Fin 32) (k : Fin 128), x1 (ix2 (blkRow p j) k) = A1 (ix2 (nbRow P j) k))
    (h2 : x2 = A2) (h3 : x3 = A3) (h4 : x4 = A4) (h5 : x5 = A5) :
    k0_pay1 (F := Ideal) x1 x2 x3 x0 x4 x5 (ix2 p o) = sage A0 A1 A2 A3 A4 A5 (ix2 P o) := by
  subst h2 h3 h4 h5
  refine (payload_apply x1 x2 x3 x0 x4 x5 p o).trans ?_
  show _ = outRow (fun k => A0 (ix2 P k)) (fun j k => A1 (ix2 (nbRow P j) k)) x2 x3 x4 x5 o
  rw [show (fun k => x0 (ix2 p k)) = fun k => A0 (ix2 P k) from funext h0,
    show (fun j k => x1 (ix2 (blkRow p j) k)) = fun j k => A1 (ix2 (nbRow P j) k) from funext fun j => funext (h1 j)]

end Cert.KernelIdeal.Row

end
-- ==== Proof.Whole.lean ====
/-
  From the blocks to the whole result array.

  The grid has 25 points; point `t` works on nodes `400 t … 400 t + 399`. Its own-feature block is rows
  `400 t + p` of the feature array, its neighbour block rows `12800 t + r` of the neighbour array — so neighbour `j` of
  the block's node `p`, row `32 p + j` of the block, is row `32 (400 t + p) + j` of the array — and the four parameter
  windows hold their arrays whole at every point. Hence what point `t` writes back is block `t` of `Pooling.sage` of
  the argument arrays; the 25 blocks of 400 rows cover the 10000 rows, so the result array ends holding `Pooling.sage`.
-/
import proofs.«144850_j68796786147566_1_alg».proof.Proof.Gen.KernelIdeal.Value
import proofs.«144850_j68796786147566_1_alg».proof.Proof.KernelRow

set_option maxRecDepth 16384

noncomputable section

namespace Cert.KernelIdeal.Whole

open Cert.KernelIdeal Cert.KernelIdeal.Gen Cert.KernelIdeal.Row Idealize.ShloMosaic Idealize.ShloMosaic.TcCoe Idealize.SL.Sem
open Idealize.ShloMosaic.ValueIdx Cert.Pooling
open Idealize.ShloMosaic.Pipeline (Dat)

variable (m : (ℓ : Loc nD τ sig) → Buf (Elt Ideal) ℓ) (ρ : Dev nD → PrngReg)

theorem hz2 : (![0, 0] : Fin 2 → Nat) = fun _ => 0 := funext fun a => by fin_cases a <;> rfl
theorem hz1 : (![0] : Fin 1 → Nat) = fun _ => 0 := funext fun a => by fin_cases a; rfl

/-- The printed index maps over the 25 points: the two node-indexed inputs and the output are at block `t`, the four
    parameter windows at block 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 1) = 0
    ∧ win0_6.index t (0 : Fin 2) = t.val ∧ win0_6.index t (1 : Fin 2) = 0 :=
  (by decide +kernel : ∀ t : Fin grid0.N, _)

theorem point_lt (t : Fin cfg0.N) : t.val < 25 := lt_of_lt_of_eq t.isLt N_0

/-- Node `p` of point `t`'s block is node `400 t + p`. -/
def node (t : Fin cfg0.N) (p : Fin 400) : Fin 10000 := ⟨400 * t.val + p.val, by have := point_lt t; have := p.isLt; omega⟩

/-! ## The input blocks, read off the arrays -/

/-- Row `p` of the own-feature block is row `400 t + p` of the feature array. -/
theorem own_blk (c : Dev nD) (t : Fin cfg0.N) (p : Fin 400) (k : Fin 128) :
    (iblk m c 0 t : Vec Ideal S400x128 .f32) (ix2 p k) = (V m c main_arg0 : Vec Ideal S10000x128 .f32) (ix2 (node t p) k) := by
  obtain ⟨e0, e1, -⟩ := idx_facts t
  unfold iblk
  rw [View.read_apply]
  show V m c main_arg0 _ = V m c main_arg0 _
  congr 1
  funext a; apply Fin.ext
  match a with
  | ⟨0, _⟩ => show win0_0.index t (0 : Fin 2) * 400 + 1 * p.val = 400 * t.val + p.val; rw [e0]; omega
  | ⟨1, _⟩ => show win0_0.index t (1 : Fin 2) * 128 + 1 * k.val = k.val; rw [e1]; omega

/-- Row `32 p + j` of the neighbour block is row `32 (400 t + p) + j` of the neighbour array. -/
theorem nb_blk (c : Dev nD) (t : Fin cfg0.N) (p : Fin 400) (j : Fin 32) (k : Fin 128) :
    (iblk m c 1 t : Vec Ideal S12800x128 .f32) (ix2 (blkRow p j) k)
      = (V m c main_arg1 : Vec Ideal S320000x128 .f32) (ix2 (nbRow (node t p) j) k) := by
  obtain ⟨-, -, e0, e1, -⟩ := idx_facts t
  unfold iblk
  rw [View.read_apply]
  show V m c main_arg1 _ = V m c main_arg1 _
  congr 1
  funext a; apply Fin.ext
  match a with
  | ⟨0, _⟩ => show win0_1.index t (0 : Fin 2) * 12800 + 1 * (p.val * 32 + j.val) = (400 * t.val + p.val) * 32 + j.val; rw [e0]; omega
  | ⟨1, _⟩ => show win0_1.index t (1 : Fin 2) * 128 + 1 * k.val = k.val; rw [e1]; omega

/-- The pooling weights' block is the whole array at every point. -/
theorem wp_blk (c : Dev nD) (t : Fin cfg0.N) : (iblk m c 2 t : Vec Ideal S128x128 .f32) = V m c main_arg2 := by
  obtain ⟨-, -, -, -, e0, e1, -⟩ := idx_facts t
  funext y
  unfold iblk
  rw [View.read_apply]
  show V m c main_arg2 _ = V m c main_arg2 _
  congr 1
  funext a; apply Fin.ext
  match a with
  | ⟨0, _⟩ => show win0_2.index t (0 : Fin 2) * 128 + 1 * (y 0).val = (y 0).val; rw [e0]; omega
  | ⟨1, _⟩ => show win0_2.index t (1 : Fin 2) * 128 + 1 * (y 1).val = (y 1).val; rw [e1]; omega

/-- So is the pooling bias's, -/
theorem bp_blk (c : Dev nD) (t : Fin cfg0.N) : (iblk m c 3 t : Vec Ideal S128 .f32) = V m c main_arg3 := by
  obtain ⟨-, -, -, -, -, -, e0, -⟩ := idx_facts t
  funext y
  unfold iblk
  rw [View.read_apply]
  show V m c main_arg3 _ = V m c main_arg3 _
  congr 1
  funext a; apply Fin.ext
  match a with
  | ⟨0, _⟩ => show win0_3.index t (0 : Fin 1) * 128 + 1 * (y 0).val = (y 0).val; rw [e0]; omega

/-- the output weights', -/
theorem w_blk (c : Dev nD) (t : Fin cfg0.N) : (iblk m c 4 t : Vec Ideal S256x128 .f32) = V m c main_arg4 := by
  obtain ⟨-, -, -, -, -, -, -, e0, e1, -⟩ := idx_facts t
  funext y
  unfold iblk
  rw [View.read_apply]
  show V m c main_arg4 _ = V m c main_arg4 _
  congr 1
  funext a; apply Fin.ext
  match a with
  | ⟨0, _⟩ => show win0_4.index t (0 : Fin 2) * 256 + 1 * (y 0).val = (y 0).val; rw [e0]; omega
  | ⟨1, _⟩ => show win0_4.index t (1 : Fin 2) * 128 + 1 * (y 1).val = (y 1).val; rw [e1]; omega

/-- and the output bias's. -/
theorem b_blk (c : Dev nD) (t : Fin cfg0.N) : (iblk m c 5 t : Vec Ideal S128 .f32) = V m c main_arg5 := by
  obtain ⟨-, -, -, -, -, -, -, -, -, e0, -⟩ := idx_facts t
  funext y
  unfold iblk
  rw [View.read_apply]
  show V m c main_arg5 _ = V m c main_arg5 _
  congr 1
  funext a; apply Fin.ext
  match a with
  | ⟨0, _⟩ => show win0_5.index t (0 : Fin 1) * 128 + 1 * (y 0).val = (y 0).val; rw [e0]; omega

/-! ## What a point writes back, and the cover -/

/-- The six argument arrays' function the result array ends holding. -/
abbrev result (c : Dev nD) : Vec Ideal S10000x128 .f32 :=
  sage (V m c main_arg0) (V m c main_arg1) (V m c main_arg2) (V m c main_arg3) (V m c main_arg4) (V m c main_arg5)

/-- WHAT POINT `t` WRITES BACK is block `t` of `result`. -/
theorem flushed_eq (c : Dev nD) (t : Fin cfg0.N) :
    (dats m 0 c).flushed 6 t = ((cfg0.win 6).blk t).view.read (Elt Ideal) (result m c) := by
  obtain ⟨-, -, -, -, -, -, -, -, -, -, e0, e1⟩ := idx_facts t
  rw [Value.flushed6]
  unfold out0_6
  rw [View.canon_unit_zero hz2]
  simp only [View.ld_unit_zero (S := S12800x128) hz2, View.ld_unit_zero (S := S128x128) hz2, View.ld_unit_zero (S := S128) hz1,
    View.ld_unit_zero (S := S400x128) hz2, View.ld_unit_zero (S := S256x128) hz2]
  funext y
  obtain ⟨p, o, rfl⟩ : ∃ (p : Fin 400) (o : Fin 128), y = ix2 p o := ⟨y 0, y 1, eq_ix2 y⟩
  show k0_pay1 (F := Ideal) (iblk m c 1 t) (iblk m c 2 t) (iblk m c 3 t) (iblk m c 0 t) (iblk m c 4 t) (iblk m c 5 t) (ix2 p o)
    = result m c (((cfg0.win 6).blk t).view.emb (ix2 p o))
  have hemb : ((cfg0.win 6).blk t).view.emb (ix2 p o) = (ix2 (node t p) o : S10000x128.Idx) := by
    funext a; apply Fin.ext
    match a with
    | ⟨0, _⟩ => show win0_6.index t (0 : Fin 2) * 400 + 1 * p.val = 400 * t.val + p.val; rw [e0]; omega
    | ⟨1, _⟩ => show win0_6.index t (1 : Fin 2) * 128 + 1 * o.val = o.val; rw [e1]; omega
  rw [hemb]
  exact block_row (iblk m c 0 t) (iblk m c 1 t) (iblk m c 2 t) (iblk m c 3 t) (iblk m c 4 t) (iblk m c 5 t)
    (V m c main_arg0) (V m c main_arg1) (V m c main_arg2) (V m c main_arg3) (V m c main_arg4) (V m c main_arg5)
    (node t p) p o (own_blk m c t p) (nb_blk m c t p) (wp_blk m c t) (bp_blk m c t) (w_blk m c t) (b_blk m c t)

/-- An index of the array is in point `t`'s block iff each coordinate is in the block's range on its axis. -/
theorem mem_blk (t : Fin cfg0.N) (i : S10000x128.Idx) :
    i ∈ ((cfg0.win 6).blk t).view.set ↔ ∀ a : Fin 2, win0_6.index t a * S400x128.size a ≤ (i a).val ∧ (i a).val < win0_6.index t a * S400x128.size a + S400x128.size a := by
  show i ∈ ((View.whole main_v0).slice (win0_6.rect t)).set ↔ _
  rw [View.set_slice_whole, Rect.mem_set_unit]
  exact Iff.rfl

/-- THE RESULT ARRAY after the run: row `R` lies in the block of point `R / 400`, so the 25 blocks cover the array. -/
theorem final (c : Dev nD) : (dats m 0 c).arrAt 6 cfg0.N = result m c :=
  (dats m 0 c).arrAt_eq_of_cover 6 (result m c) (fun t _ => flushed_eq m c t) fun i => by
    have hi0 : (i 0).val < 10000 := (i 0).isLt
    have hi1 : (i 1).val < 128 := (i 1).isLt
    have hN : cfg0.N = 25 := N_0
    refine ⟨⟨(i 0).val / 400, by rw [hN]; omega⟩, flush0_6 _, ?_⟩
    rw [mem_blk]
    obtain ⟨-, -, -, -, -, -, -, -, -, -, e0, e1⟩ := idx_facts ⟨(i 0).val / 400, by rw [hN]; omega⟩
    intro a
    match a with
    | ⟨0, _⟩ => show win0_6.index _ (0 : Fin 2) * 400 ≤ (i 0).val ∧ (i 0).val < win0_6.index _ (0 : Fin 2) * 400 + 400; rw [e0]; show (i 0).val / 400 * 400 ≤ (i 0).val ∧ (i 0).val < (i 0).val / 400 * 400 + 400; omega
    | ⟨1, _⟩ => show win0_6.index _ (1 : Fin 2) * 128 ≤ (i 1).val ∧ (i 1).val < win0_6.index _ (1 : Fin 2) * 128 + 128; rw [e1]; omega

/-! ## The run, read -/

/-- The frame run re-posted: the result array at `result`, the six arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c => ⟨(h c).1.trans (final m c), (h c).2⟩) (Value.run_blocks m ρ)

end Cert.KernelIdeal.Whole

end
-- ==== Proof.lean ====
/-
  A pooling aggregator over a graph's neighbourhoods: the kernel against its jnp reference, on the extended reals.

  Every one of the 10000 nodes has a feature row of 128 entries and 32 neighbours with a row each. Both programs send
  each neighbour row through a dense layer and a rectifier, take the elementwise maximum of a node's 32 hidden rows,
  lay the node's own row and that maximum side by side, and apply a second dense layer and a rectifier. The kernel
  does this on 25 blocks of 400 nodes, narrowing the factors of each product to bf16 first; the reference on all
  nodes at once. On the extended reals the narrowing is the identity, a product into a zero accumulator is the same
  sum as the host's, and the maximum over a group from -∞ is the same fold: the two results are one function of the
  six arguments, `Pooling.sage` (Proof/Spec.lean), entry by entry, with the sums and the maximum in the same order on
  both sides. So the precondition is never opened.

  The kernel's side: an entry of the stored block (Proof/KernelRow.lean), the input blocks read off the arrays, what
  a point writes back and the cover (Proof/Whole.lean), over the generated blockwise value leg. The reference's side:
  its generated run, read at an index (Proof/RefRow.lean) with the generated per-operation lemmas. The three frames
  are the generated ones; the idealization rewrote nothing.
-/
import proofs.«144850_j68796786147566_1_alg».proof.Defs
import proofs.«144850_j68796786147566_1_alg».proof.Proof.Gen.Kernel
import proofs.«144850_j68796786147566_1_alg».proof.Proof.Gen.Kernel.Skeleton
import proofs.«144850_j68796786147566_1_alg».proof.Proof.Gen.Kernel.Launch
import proofs.«144850_j68796786147566_1_alg».proof.Proof.Gen.Kernel.Points
import proofs.«144850_j68796786147566_1_alg».proof.Proof.Gen.Kernel.Frame
import proofs.«144850_j68796786147566_1_alg».proof.Proof.Gen.KernelIdeal
import proofs.«144850_j68796786147566_1_alg».proof.Proof.Gen.KernelIdeal.Skeleton
import proofs.«144850_j68796786147566_1_alg».proof.Proof.Gen.KernelIdeal.Launch
import proofs.«144850_j68796786147566_1_alg».proof.Proof.Gen.KernelIdeal.Points
import proofs.«144850_j68796786147566_1_alg».proof.Proof.Gen.KernelIdeal.Frame
import proofs.«144850_j68796786147566_1_alg».proof.Proof.Gen.ReferenceIdeal
import proofs.«144850_j68796786147566_1_alg».proof.Proof.Gen.Pre_finite_inputs
import proofs.«144850_j68796786147566_1_alg».proof.Proof.Gen.KernelIdeal.Value
import proofs.«144850_j68796786147566_1_alg».proof.Proof.Gen.ReferenceIdeal.Run
import proofs.«144850_j68796786147566_1_alg».proof.Proof.Gen.ReferenceIdeal.Read
import proofs.«144850_j68796786147566_1_alg».proof.Proof.RefRow
import proofs.«144850_j68796786147566_1_alg».proof.Proof.Whole
import Idealize.ShloMosaic.Adequacy
import Idealize.ShloMosaic.Init

noncomputable section

namespace Cert.Proof

open Idealize.ShloMosaic Idealize.SL.Sem

/-- The kernel as printed runs and keeps its arguments. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference runs and keeps its arguments: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the six arguments both programs end with the result array at `Pooling.sage` of
    the arguments: the kernel block by block, the reference in one piece. -/
theorem algebraic : Cert.algebraic_KernelIdeal_ReferenceIdeal := by
  intro m ρ m' ρ' _ hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v12_eq, Cert.ReferenceIdeal.Row.result_eq, (hagree c).1, (hagree c).2.1,
    (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
